-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S524288 : Shape := ⟨1, ![524288]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S65536x512 .f32) (main_arg1 : FVec F S512x512 .f32) (main_arg2 : IVec S524288 32) (main_arg3 : IVec S524288 32) (main_arg4 : FVec F S524288 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S524288 .f32 := Host.absf main_arg4
  let main_cst_2 : FVec F S_ .f32 := constant S_ .f32 0x7F800000#32
  let main_v10 : FVec F S524288 .f32 := broadcastInDim S524288 ![] bcast_S_S524288 main_cst_2
  let main_v11 : IVec S524288 1 := cmpf .olt main_v9 main_v10
  let main_c_3 : IVec S_ 1 := constantI S_ 1 1#1
  let main_v12 : IVec S_ 1 := (fun x v => Host.reduce IntOp.andi x v reducesTo_S524288_S_d0 h_S_) main_v11 main_c_3
  let main_v13 : IVec S_ 1 := andi main_v8 main_v12
  main_v13
-- ==== Kernel.lean ====
abbrev S65536x512 : Shape := ⟨2, ![65536, 512]⟩
abbrev S512x512 : Shape := ⟨2, ![512, 512]⟩
abbrev S524288 : Shape := ⟨1, ![524288]⟩
abbrev S4096x512 : Shape := ⟨2, ![4096, 512]⟩
abbrev S524288x1 : Shape := ⟨2, ![524288, 1]⟩
abbrev S_ : Shape := ⟨0, ![]⟩
abbrev S524288x512 : Shape := ⟨2, ![524288, 512]⟩

abbrev nBuf : Space → Nat
  | .hbm => 25
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S524288, .i32⟩
  | .hbm, ⟨3, _⟩ => ⟨S524288, .i32⟩
  | .hbm, ⟨4, _⟩ => ⟨S524288, .f32⟩
  | .hbm, ⟨5, _⟩ => ⟨S512x512, .f32⟩
  | .hbm, ⟨6, _⟩ => ⟨S512x512, .bf16⟩
  | .hbm, ⟨7, _⟩ => ⟨S65536x512, .bf16⟩
  | .hbm, ⟨8, _⟩ => ⟨S524288x1, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x512, .bf16⟩
  | .hbm, ⟨18, _⟩ => ⟨S524288x512, .f32⟩
  | .hbm, ⟨19, _⟩ => ⟨S524288x512, .f32⟩
  | .hbm, ⟨20, _⟩ => ⟨S524288x512, .f32⟩
  | .hbm, ⟨21, _⟩ => ⟨S_, .f32⟩
  | .hbm, ⟨22, _⟩ => ⟨S65536x512, .f32⟩
  | .hbm, ⟨23, _⟩ => ⟨S524288x1, .i32⟩
  | .hbm, ⟨24, _⟩ => ⟨S65536x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S4096x512, .bf16⟩
  | .local _ .vmem, ⟨4, _⟩ => ⟨S4096x512, .bf16⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512_S512x512_1_0 : S512x512.Transposes [1, 0] S512x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S4096x512_S4096x512_0_0 : (Rect.unit (s := S4096x512) ![0, 0] S4096x512.size inb_S4096x512_S4096x512_0_0).PackedRows (EltTy.packing .bf16)
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x512_0_1 : S524288x1.BroadcastsInDim S524288x512 (![0, 1] : Fin 2 → Fin S524288x512.rank)
  bcast_S_S65536x512 : S_.BroadcastsInDim S65536x512 (![] : Fin 0 → Fin S65536x512.rank)
  dot_S4096x512_S512x512_S4096x512_1_0_0_1_n_n_wf : DotDims.WF S4096x512 S512x512 S4096x512 [1] [0] [0] [1] [] []
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S65536x512.size a
  hwx0_2 : ∀ i : grid0.Coords, EltTy.bits .bf16 = 32 ∨ (Rect.block (s := S65536x512) S4096x512.size (cc0_transform_2 i) (hinb0_2 i)).WholeWords (EltTy.packing .bf16)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S524288 : Shape := ⟨1, ![524288]⟩
abbrev S524288x1 : Shape := ⟨2, ![524288, 1]⟩
abbrev S_ : Shape := ⟨0, ![]⟩
abbrev S524288x512 : Shape := ⟨2, ![524288, 512]⟩

abbrev nBuf : Space → Nat
  | .hbm => 22
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S524288, .i32⟩
  | .hbm, ⟨3, _⟩ => ⟨S524288, .i32⟩
  | .hbm, ⟨4, _⟩ => ⟨S524288, .f32⟩
  | .hbm, ⟨5, _⟩ => ⟨S65536x512, .f32⟩
  | .hbm, ⟨6, _⟩ => ⟨S524288x1, .f32⟩
  | .hbm, ⟨7, _⟩ => ⟨S_, .i32⟩
  | .hbm, ⟨8, _⟩ => ⟨S524288, .i32⟩
  | .hbm, ⟨9, _⟩ => ⟨S524288, .i1⟩
  | .hbm, ⟨10, _⟩ => ⟨S_, .i32⟩
  | .hbm, ⟨11, _⟩ => ⟨S524288, .i32⟩
  | .hbm, ⟨12, _⟩ => ⟨S524288, .i32⟩
  | .hbm, ⟨13, _⟩ => ⟨S524288, .i32⟩
  | .hbm, ⟨14, _⟩ => ⟨S524288x1, .i32⟩
  | .hbm, ⟨15, _⟩ => ⟨S524288x512, .f32⟩
  | .hbm, ⟨16, _⟩ => ⟨S524288x512, .f32⟩
  | .hbm, ⟨17, _⟩ => ⟨S524288x512, .f32⟩
  | .hbm, ⟨18, _⟩ => ⟨S_, .f32⟩
  | .hbm, ⟨19, _⟩ => ⟨S65536x512, .f32⟩
  | .hbm, ⟨20, _⟩ => ⟨S524288x1, .i32⟩
  | .hbm, ⟨21, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x512_0_1 : S524288x1.BroadcastsInDim S524288x512 (![0, 1] : Fin 2 → Fin S524288x512.rank)
  bcast_S_S65536x512 : S_.BroadcastsInDim S65536x512 (![] : Fin 0 → Fin S65536x512.rank)
  dot_S65536x512_S512x512_S65536x512_1_1_0_0_n_n_wf : DotDims.WF S65536x512 S512x512 S65536x512 [1] [1] [0] [0] [] []
  gather_S65536x512_S524288x1_S524288x512_1_0_n_n_0_1_1512_wf : GatherDims.WF S65536x512 S524288x1 S524288x512 [1] [0] [] [0] [] 1 ![1, 512]
  scatter_S65536x512_S524288x1_S524288x512_1_0_0_1_wf : ScatterDims.WF S65536x512 S524288x1 S524288x512 [1] [0] [0] 1

variable [Facts₀]

def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf
def gather_S65536x512_S524288x1_S524288x512_1_0_n_n_0_1_1512 : GatherDims S65536x512 S524288x1 S524288x512 where
  offsetDims := [1]
  collapsedSliceDims := [0]
  operandBatchingDims := []
  startIndicesBatchingDims := []
  startIndexMap := [0]
  indexVectorDim := 1
  sliceSizes := ![1, 512]
  wf := gather_S65536x512_S524288x1_S524288x512_1_0_n_n_0_1_1512_wf
def scatter_S65536x512_S524288x1_S524288x512_1_0_0_1 : ScatterDims S65536x512 S524288x1 S524288x512 where
  updateWindowDims := [1]
  insertedWindowDims := [0]
  scatterDimsToOperandDims := [0]
  indexVectorDim := 1
  wf := scatter_S65536x512_S524288x1_S524288x512_1_0_0_1_wf

class Facts : Prop extends Facts₀ where

variable [Facts]
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Spec.lean ====
/-
  The dense stage of the graph-convolution layer as ONE function of the feature matrix and the weight matrix.

  Every node's features are multiplied by the transposed weights: `h[n, e] = ∑ k, x[n, k] · w[e, k]`, a sum of 512
  products on the extended reals. The second operand is read along its ROWS, which is how a contraction of both
  matrices' second axes reads it; a product with the transposed matrix reads the same entries in the same order.
-/
import Idealize.ShloMosaic.PureOps.Ideal
import Idealize.ShloMosaic.Lib.ValueIdx

noncomputable section

open scoped BigOperators

namespace Cert.Gcn

open Idealize.ShloMosaic Idealize.ShloMosaic.ValueIdx

/-- The node-feature matrix's shape: 65536 nodes, 512 features (and, after the dense stage, 512 embedding coordinates). -/
abbrev Nodes : Shape := ⟨2, ![65536, 512]⟩
/-- The weight matrix's shape: 512 embedding coordinates by 512 features. -/
abbrev Weights : Shape := ⟨2, ![512, 512]⟩

/-- Entry `(n, e)` of the dense stage: node `n`'s features against row `e` of the weights. -/
def denseAt (x : Nodes.Idx → EReal) (w : Weights.Idx → EReal) (n : Fin 65536) (e : Fin 512) : EReal :=
  ∑ k : Fin 512, x (ix2 n k) * w (ix2 e k)

/-- The dense stage, index by index. -/
def dense (x : Nodes.Idx → EReal) (w : Weights.Idx → EReal) : Nodes.Idx → EReal :=
  fun i => denseAt x w (i 0) (i 1)

theorem dense_apply (x : Nodes.Idx → EReal) (w : Weights.Idx → EReal) (n : Fin 65536) (e : Fin 512) :
    dense x w (ix2 n e) = ∑ k : Fin 512, x (ix2 n k) * w (ix2 e k) := rfl

/-- A product with the TRANSPOSED weights is the dense stage: if `wt (k, e) = w (e, k)` for all `k`, `e`, then
    `∑ k, x (n, k) · wt (k, e)` is entry `(n, e)`. -/
theorem denseAt_of_transposed (x : Nodes.Idx → EReal) (w wt : Weights.Idx → EReal)
    (hwt : ∀ (k e : Fin 512), wt (ix2 k e) = w (ix2 e k)) (n : Fin 65536) (e : Fin 512) :
    ∑ k : Fin 512, x (ix2 n k) * wt (ix2 k e) = denseAt x w n e :=
  Finset.sum_congr rfl fun k _ => by rw [hwt k e]

end Cert.Gcn

end
-- ==== Proof.RegionValue.lean ====
/-
  What the dense stage's launch leaves in its output array.

  The launch walks the 65536 nodes in 16 blocks of 4096 rows. At each block it loads the block of features and the
  whole transposed-weight matrix, multiplies them into a zero accumulator, and stores the product as the output's
  block of the same rows. Read on the extended reals the two changes of float format are the identity, so entry
  `(p, q)` of a block is `∑ k, x (p, k) · wt (k, q)`, and the blocks tile the output: the array ends holding the
  dense stage of the features and the weights, `h[n, e] = ∑ k, x[n, k] · w[e, k]`.
-/
import proofs.«410357_j8744553415191_3_alg».proof.Proof.Gen.KernelIdeal.Frame
import proofs.«410357_j8744553415191_3_alg».proof.Proof.LibPlainDot
import proofs.«410357_j8744553415191_3_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Region

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

/-! ## One block's product -/

/-- The block product contracts the left operand's columns with the right operand's rows. -/
theorem plain : Cert.Lib.PlainDot dot_S4096x512_S512x512_S4096x512_1_0_0_1_n_n := ⟨rfl, rfl, rfl, rfl, rfl, rfl⟩

/-- What one grid point stores, at entry `(a, b)` of its block: the row of features against the column of the
    transposed weights. The accumulator starts at zero and both changes of float format are the identity. -/
theorem pay_apply (x0 : FVec Ideal S4096x512 .f32) (x1 : FVec Ideal S512x512 .bf16) (a : Fin 4096) (b : Fin 512) :
    k0_pay1 (F := Ideal) x0 x1 (ix2 a b) = ∑ k : Fin 512, x0 (ix2 a k) * x1 (ix2 k b) := by
  unfold k0_pay1
  refine (plain.matmul_zero_apply none (truncf .bf16 x0 bitsLt_bf16_f32)
    (shapeCast S512x512 x1 shapeCasts_S512x512_S512x512) a b).trans ?_
  refine Finset.sum_congr rfl fun k _ => ?_
  exact congrArg (fun v : FVec Ideal S512x512 .bf16 => x0 (ix2 a k) * v (ix2 k b))
    (shapeCast_self x1 shapeCasts_S512x512_S512x512)

/-! ## The operands as the launch finds them -/

/-- The feature matrix, untouched by the lines before the launch. -/
abbrev feats (c : Dev nD) : FVec Ideal S65536x512 .f32 := m ((c : Thread nD τ).loc main_arg0)
/-- The weight matrix as given. -/
abbrev weights (c : Dev nD) : FVec Ideal S512x512 .f32 := m ((c : Thread nD τ).loc main_arg1)

/-- The launch's second operand is the weight matrix transposed (the change of format after it is the identity). -/
theorem V_weights (c : Dev nD) :
    (V m c main_v1 : S512x512.Idx → EReal)
      = truncf .bf16 (transpose S512x512 [1, 0] (weights m c) transposes_S512x512_S512x512_1_0) bitsLt_bf16_f32 := by
  show StableHlo.after hostOps0 (fun b => m (c, b)) (Proc.devRef .tc main_v1) = _
  after_results

/-- Entry `(k, e)` of the launch's second operand is entry `(e, k)` of the weights. -/
theorem V_weights_apply (c : Dev nD) (k e : Fin 512) :
    (V m c main_v1 : S512x512.Idx → EReal) (ix2 k e) = weights m c (ix2 e k) := by
  rw [V_weights]
  refine (transpose_apply [1, 0] (weights m c) transposes_S512x512_S512x512_1_0 (ix2 k e) (ix2 e k) fun b => ?_)
  match b with
  | ⟨0, _⟩ => rfl
  | ⟨1, _⟩ => rfl

/-! ## From the blocks to the array -/

theorem hz : (![0, 0] : Fin 2 → Nat) = fun _ => 0 := funext fun a => by fin_cases a <;> rfl

/-- The launch's output array after the run: the dense stage of the features and the weights. -/
abbrev hidden (c : Dev nD) : FVec Ideal S65536x512 .bf16 := Cert.Gcn.dense (feats m c) (weights m c)

/-- The index maps, decided over the 16 points: the feature block and the output block are the same block of rows
    and span all columns, and the weight block is the whole matrix. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 15
    ∧ win0_2.index t (1 : Fin 2) = 0 :=
  (by decide +kernel : ∀ t : Fin grid0.N, _)

/-- Every block of rows is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- A feature block's entry `(p, k)` is the feature matrix's entry in row `4096 · block + p`. -/
theorem feat_blk (c : Dev nD) (t : Fin cfg0.N) (p : Fin 4096) (k : Fin 512) (i : S65536x512.Idx)
    (h0 : (i 0).val = win0_2.index t (0 : Fin 2) * 4096 + p.val) :
    (iblk m c 0 t : S4096x512.Idx → EReal) (ix2 p k) = feats m c (ix2 (i 0) k) := by
  obtain ⟨e0, e1, -, -, -, -⟩ := idx_facts t
  show V m c main_arg0 (((cfg0.win 0).blk t).view.emb (ix2 p k)) = _
  rw [V_main_arg0]
  refine congrArg (feats m c) (funext fun a => Fin.ext ?_)
  match a with
  | ⟨0, _⟩ => show win0_0.index t (0 : Fin 2) * 4096 + 1 * p.val = (i 0).val; omega
  | ⟨1, _⟩ => show win0_0.index t (1 : Fin 2) * 512 + 1 * k.val = k.val; omega

/-- The weight block is the whole transposed matrix: its entry `(k, q)` is the weights' entry `(q, k)`. -/
theorem wt_blk (c : Dev nD) (t : Fin cfg0.N) (k q : Fin 512) :
    (iblk m c 1 t : S512x512.Idx → EReal) (ix2 k q) = weights m c (ix2 q k) := by
  obtain ⟨-, -, e2, e3, -, -⟩ := idx_facts t
  show (V m c main_v1 : S512x512.Idx → EReal) (((cfg0.win 1).blk t).view.emb (ix2 k q)) = _
  rw [← V_weights_apply m c k q]
  refine congrArg (V m c main_v1 : S512x512.Idx → EReal) (funext fun a => Fin.ext ?_)
  match a with
  | ⟨0, _⟩ => show win0_1.index t (0 : Fin 2) * 512 + 1 * k.val = k.val; omega
  | ⟨1, _⟩ => show win0_1.index t (1 : Fin 2) * 512 + 1 * q.val = q.val; omega

/-- WHAT POINT `t` WRITES BACK is block `t` of the dense stage. -/
theorem flushed_eq (c : Dev nD) (t : Fin cfg0.N) :
    (dats m 0 c).flushed 2 t = ((cfg0.win 2).blk t).view.read (Elt Ideal) (hidden m c) := by
  show (cfg0.win 2).cut (grid0.coords t) ((dats m 0 c).after 2 t) = _
  rw [after0_2]
  unfold out0_2
  rw [View.canon_unit_zero hz]
  simp only [View.ld_unit_zero (S := S4096x512) hz, View.ld_unit_zero (S := S512x512) hz]
  funext j
  obtain ⟨p, q, rfl⟩ : ∃ (p : Fin 4096) (q : Fin 512), j = ix2 p q := ⟨j 0, j 1, eq_ix2 j⟩
  obtain ⟨-, -, -, -, -, e5⟩ := idx_facts t
  refine (pay_apply (iblk m c 0 t) (iblk m c 1 t) p q).trans ?_
  show _ = Cert.Gcn.denseAt (feats m c) (weights m c) ((((cfg0.win 2).blk t).view.emb (ix2 p q)) 0) ((((cfg0.win 2).blk t).view.emb (ix2 p q)) 1)
  have hq : ((((cfg0.win 2).blk t).view.emb (ix2 p q)) 1 : Fin 512) = q := Fin.ext (by
    show win0_2.index t (1 : Fin 2) * 512 + 1 * q.val = q.val; omega)
  rw [hq]
  unfold Cert.Gcn.denseAt
  refine Finset.sum_congr rfl fun k _ => ?_
  rw [wt_blk m c t k q]
  exact congrArg (· * weights m c (ix2 q k)) (feat_blk m c t p k (((cfg0.win 2).blk t).view.emb (ix2 p q)) (by
    show win0_2.index t (0 : Fin 2) * 4096 + 1 * p.val = _; omega))

/-- An index of the output is in point `t`'s block iff each coordinate is in the block's range on its axis. -/
theorem mem_blk (t : Fin cfg0.N) (i : S65536x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v2).slice (win0_2.rect t)).set ↔ _
  rw [View.set_slice_whole, Rect.mem_set_unit]
  exact Iff.rfl

/-- The 16 blocks of 4096 rows tile the output: row `r` is in block `r / 4096`. -/
theorem cover (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- THE OUTPUT ARRAY after the launch is the dense stage of the features and the weights. -/
theorem final (c : Dev nD) : (dats m 0 c).arrAt 2 cfg0.N = hidden m c :=
  (dats m 0 c).arrAt_eq_of_cover 2 (hidden m c) (fun t _ => flushed_eq m c t) cover

end Cert.KernelIdeal.Region

end
-- ==== Proof.KernelRun.lean ====
/-
  The kernel's run, read to its result.

  After the dense stage's launch the program gathers, for every edge, the row of the launch's output that the edge's
  column index names (a negative index wrapped once by the number of nodes), widens it (the identity on the extended
  reals), scales it by the edge's value, and adds it into the output row that the edge's row index names, starting
  from zeros. The lines after the launch find the launch's output at the dense stage of the features and the weights
  and every argument as it was given, so the result is the sparse stage of the dense stage of the arguments.
-/
import proofs.«410357_j8744553415191_3_alg».proof.Proof.RegionValue

set_option maxRecDepth 16384

noncomputable section

namespace Cert.KernelIdeal.KernelRun

open Cert.KernelIdeal Cert.KernelIdeal.Gen Cert.KernelIdeal.Region Idealize.ShloMosaic Idealize.ShloMosaic.TcCoe
open Idealize.SL.Sem Idealize.ShloMosaic.StableHlo

variable (m : (ℓ : Loc nD τ sig) → Buf (Elt Ideal) ℓ) (ρ : Dev nD → PrngReg)

/-- The sparse stage over any dense matrix `h` held in the narrower float format: per edge, row `col` of `h`
    (wrapped when negative), widened, times the edge's value, added into row `row` of an all-zero matrix. -/
def sparse (h : FVec Ideal S65536x512 .bf16) (row col : IVec S524288 32) (vals : FVec Ideal S524288 .f32) :
    FVec Ideal S65536x512 .f32 :=
  Host.scatterAdd scatter_S65536x512_S524288x1_S524288x512_1_0_0_1
    (broadcastInDim S65536x512 ![] bcast_S_S65536x512 (constant (F := Ideal) S_ .f32 0x00000000#32))
    (broadcastInDim S524288x1 ![0] bcast_S524288_S524288x1_0 row)
    (mulf (F := Ideal)
      (broadcastInDim S524288x512 ![0, 1] bcast_S524288x1_S524288x512_0_1
        (broadcastInDim S524288x1 ![0] bcast_S524288_S524288x1_0 vals))
      (extf .f32
        (Host.gather gather_S65536x512_S524288x1_S524288x512_1_0_n_n_0_1_1512 h
          (broadcastInDim S524288x1 ![0] bcast_S524288_S524288x1_0
            (select (cmpi .slt col (broadcastInDim S524288 ![] bcast_S_S524288 (constantI S_ 32 0#32)))
              (addi col (broadcastInDim S524288 ![] bcast_S_S524288 (constantI S_ 32 65536#32))) col)))
        bitsLt_bf16_f32))

/-- What the lines after the launch find: the launch's arrays as the launch left them, every other buffer as the
    launch found it. -/
abbrev exitVal (c : Dev nD) : Valuation τ sig (Elt Ideal) :=
  Pipeline.withArrays spec0 c (V0 m c) fun w => (dats m 0 c).arrAt w cfg0.N

/-- They find the launch's output at the dense stage. -/
theorem exit_hidden (c : Dev nD) : exitVal m c (Proc.devRef .tc main_v2) = hidden m c :=
  (Pipeline.withArrays_arr spec0 launch0.win.arr_inj c (V0 m c) (fun w => (dats m 0 c).arrAt w cfg0.N) 2).trans (final m c)

/-- They find the row indices, the column indices and the edge values as given. -/
theorem exit_arg2 (c : Dev nD) : exitVal m c (Proc.devRef .tc main_arg2) = m ((c.tc : Thread nD τ).loc main_arg2) :=
  (Pipeline.withArrays_of_ne spec0 c (V0 m c) _ main_arg2 (by exact (by decide : ∀ w, Pipeline.arrRef spec0 w ≠ main_arg2))).trans
    (V_main_arg2 m c)
theorem exit_arg3 (c : Dev nD) : exitVal m c (Proc.devRef .tc main_arg3) = m ((c.tc : Thread nD τ).loc main_arg3) :=
  (Pipeline.withArrays_of_ne spec0 c (V0 m c) _ main_arg3 (by exact (by decide : ∀ w, Pipeline.arrRef spec0 w ≠ main_arg3))).trans
    (V_main_arg3 m c)
theorem exit_arg4 (c : Dev nD) : exitVal m c (Proc.devRef .tc main_arg4) = m ((c.tc : Thread nD τ).loc main_arg4) :=
  (Pipeline.withArrays_of_ne spec0 c (V0 m c) _ main_arg4 (by exact (by decide : ∀ w, Pipeline.arrRef spec0 w ≠ main_arg4))).trans
    (V_main_arg4 m c)

/-- The result buffer after the lines that follow the launch: the sparse stage of the dense stage. -/
theorem tail_eq (c : Dev nD) :
    Pipeline.afterTail₀ cfgs (dats m) 0 (V0 m) [hostOps1] c main_v16
      = sparse (hidden m c) (m ((c.tc : Thread nD τ).loc main_arg2)) (m ((c.tc : Thread nD τ).loc main_arg3)) (m ((c.tc : Thread nD τ).loc main_arg4)) := by
  unfold Pipeline.afterTail₀
  show StableHlo.after hostOps1 (exitVal m c) (Proc.devRef .tc main_v16) = _
  after_results
  show sparse (exitVal m c (Proc.devRef .tc main_v2)) (exitVal m c (Proc.devRef .tc main_arg2))
    (exitVal m c (Proc.devRef .tc main_arg3)) (exitVal m c (Proc.devRef .tc main_arg4)) = _
  rw [exit_hidden, exit_arg2, exit_arg3, exit_arg4]

/-- THE KERNEL'S RUN: every weakly fair execution ends with the result at the sparse stage of the dense stage of the
    arguments, the arguments unchanged. -/
theorem run : θ_run defs (onTc (τ := τ) (main (F := Ideal))) ⟨m, fun _ => 0, ρ⟩ fun r => ∀ c : Dev nD,
      r.2.mem ((c.tc : Thread nD τ).loc main_v16)
        = sparse (hidden m c) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference, read as two stages.

  Its dense stage is one contraction of the features' and the weights' second axes: entry `(n, e)` is
  `∑ k, x (n, k) · w (e, k)`. Its sparse stage gathers, for every edge, the row of the dense stage that the edge's
  column index names (a negative index wrapped once by the number of nodes), scales the row by the edge's value, and
  adds it into the output row that the edge's row index names, starting from zeros. The run's result is the sparse
  stage of the dense stage.
-/
import proofs.«410357_j8744553415191_3_alg».proof.Proof.Gen.ReferenceIdeal.Run
import proofs.«410357_j8744553415191_3_alg».proof.Proof.Gen.ReferenceIdeal.Read
import proofs.«410357_j8744553415191_3_alg».proof.Proof.Spec
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.ShloMosaic.ValueIdx
open Idealize.SL.Sem

/-- The sparse stage over any dense matrix `h`: per edge, row `col` of `h` (wrapped when negative) times the edge's
    value, added into row `row` of an all-zero matrix. -/
def sparse (h : FVec Ideal S65536x512 .f32) (row col : IVec S524288 32) (vals : FVec Ideal S524288 .f32) :
    FVec Ideal S65536x512 .f32 :=
  Host.scatterAdd scatter_S65536x512_S524288x1_S524288x512_1_0_0_1
    (broadcastInDim S65536x512 ![] bcast_S_S65536x512 (constant (F := Ideal) S_ .f32 0x00000000#32))
    (broadcastInDim S524288x1 ![0] bcast_S524288_S524288x1_0 row)
    (mulf (F := Ideal)
      (broadcastInDim S524288x512 ![0, 1] bcast_S524288x1_S524288x512_0_1
        (broadcastInDim S524288x1 ![0] bcast_S524288_S524288x1_0 vals))
      (Host.gather gather_S65536x512_S524288x1_S524288x512_1_0_n_n_0_1_1512 h
        (broadcastInDim S524288x1 ![0] bcast_S524288_S524288x1_0
          (select (cmpi .slt col (broadcastInDim S524288 ![] bcast_S_S524288 (constantI S_ 32 0#32)))
            (addi col (broadcastInDim S524288 ![] bcast_S_S524288 (constantI S_ 32 65536#32))) col))))

/-- The contraction of both second axes is the dense stage: at `(n, e)` the left operand is read along row `n` and
    the right operand along row `e`. -/
theorem dotGeneral_eq_dense (x0 : FVec Ideal S65536x512 .f32) (x1 : FVec Ideal S512x512 .f32) :
    Host.dotGeneral (F := Ideal) dot_S65536x512_S512x512_S65536x512_1_1_0_0_n_n none x0 x1 = Cert.Gcn.dense x0 x1 := by
  funext i
  refine (Read.val_main_v0_apply x0 x1 i).trans ?_
  show _ = ∑ k : Fin 512, x0 (ix2 (i 0) k) * x1 (ix2 (i 1) k)
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 (i 1) k :=
    funext fun a => Fin.ext (by match a with | ⟨0, _⟩ => rfl | ⟨1, _⟩ => rfl)
  rw [el, er]
  rfl

/-- THE REFERENCE'S RUN: every weakly fair execution ends with the result at the sparse stage of the dense stage of
    the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = sparse (Cert.Gcn.dense (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans
      (congrArg (fun d => sparse d (m ((c.tc : Thread nD τ).loc main_arg2)) (m ((c.tc : Thread nD τ).loc main_arg3))
        (m ((c.tc : Thread nD τ).loc main_arg4)))
        (dotGeneral_eq_dense (m ((c.tc : Thread nD τ).loc main_arg0)) (m ((c.tc : Thread nD τ).loc main_arg1)))),
      (h c).2⟩)
    (Cert.ReferenceIdeal.Value.run (F := Ideal) m ρ)

end Cert.ReferenceIdeal.RefValue

end
-- ==== Proof.lean ====
/-
  A graph-convolution layer, `out = adj · (x · wᵀ)` with the adjacency matrix given as 524288 weighted edges: the
  kernel and its reference compute the same function on the extended reals.

  Both programs have two stages. The DENSE stage is `h[n, e] = ∑ k, x[n, k] · w[e, k]`. The reference computes it as
  one contraction of the two matrices' second axes. The kernel transposes the weights first and then multiplies, 4096
  rows of `x` at a time in 16 grid points, each product accumulated from zero; its changes of float format are the
  identity on the extended reals, and a product with the transposed matrix reads the same entries in the same order,
  so the 16 blocks tile the same matrix `h` (Proof/RegionValue.lean against Proof/RefValue.lean, over Proof/Spec.lean).
  The SPARSE stage is the same in both programs, operation for operation: per edge, row `col` of `h` (a negative
  index wrapped once) times the edge's value, added into row `row` of a zero matrix. The kernel's copy differs only in
  widening the gathered rows, which is again the identity, so the two are one function of `h`, the indices and the
  values (`sparse_eq` below), and the results agree whatever the integer inputs hold. No law beyond the order-free
  reading of a finite sum is used, so finiteness of the inputs is never opened.

  The kernel's frames are the generated ones; the reference's frame is its generated run with the result dropped;
  the idealization rewrote nothing, so `preserves` is `True`.
-/
import proofs.«410357_j8744553415191_3_alg».proof.Defs
import proofs.«410357_j8744553415191_3_alg».proof.Proof.Gen.Kernel
import proofs.«410357_j8744553415191_3_alg».proof.Proof.Gen.Kernel.Skeleton
import proofs.«410357_j8744553415191_3_alg».proof.Proof.Gen.Kernel.Launch
import proofs.«410357_j8744553415191_3_alg».proof.Proof.Gen.Kernel.Points
import proofs.«410357_j8744553415191_3_alg».proof.Proof.Gen.Kernel.Frame
import proofs.«410357_j8744553415191_3_alg».proof.Proof.Gen.KernelIdeal
import proofs.«410357_j8744553415191_3_alg».proof.Proof.Gen.KernelIdeal.Skeleton
import proofs.«410357_j8744553415191_3_alg».proof.Proof.Gen.KernelIdeal.Launch
import proofs.«410357_j8744553415191_3_alg».proof.Proof.Gen.KernelIdeal.Points
import proofs.«410357_j8744553415191_3_alg».proof.Proof.Gen.KernelIdeal.Frame
import proofs.«410357_j8744553415191_3_alg».proof.Proof.Gen.ReferenceIdeal
import proofs.«410357_j8744553415191_3_alg».proof.Proof.Gen.ReferenceIdeal.Run
import proofs.«410357_j8744553415191_3_alg».proof.Proof.Gen.Pre_finite_inputs
import proofs.«410357_j8744553415191_3_alg».proof.Proof.KernelRun
import proofs.«410357_j8744553415191_3_alg».proof.Proof.RefValue
import Idealize.ShloMosaic.Adequacy
import Idealize.ShloMosaic.Init

noncomputable section

namespace Cert.Proof

open Idealize.ShloMosaic Idealize.SL.Sem

/-- The two programs' sparse stages are one function: the same gather, scaling and scatter-add over the same
    dimension numbers, the kernel's widening of the gathered rows being the identity on the extended reals. -/
theorem sparse_eq (h : FVec Ideal Cert.KernelIdeal.S65536x512 .bf16) (row col : IVec Cert.KernelIdeal.S524288 32)
    (vals : FVec Ideal Cert.KernelIdeal.S524288 .f32) :
    Cert.KernelIdeal.KernelRun.sparse h row col vals = Cert.ReferenceIdeal.RefValue.sparse h row col vals := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel ends at the sparse stage of the dense stage of its
    arguments and the reference at the sparse stage of the dense stage of its own: the same matrix. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact (sparse_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
